-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S128x768 : Shape := ⟨2, ![128, 768]⟩
abbrev S128 : Shape := ⟨1, ![128]⟩
abbrev S128x128x128 : Shape := ⟨3, ![128, 128, 128]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S128x128x128 : S_.BroadcastsInDim S128x128x128 (![] : Fin 0 → Fin S128x128x128.rank)
  reducesTo_S128x128x128_S_d0_1_2 : S128x128x128.ReducesTo [0, 1, 2] S_

variable [Facts]

def fn_part2 {F : FTy → Type} [FloatOps F] (main_arg7 : FVec F S128x128x128 .f32) (main_v33 : IVec S_ 1) : IVec S_ 1 :=
  let main_v34 : FVec F S128x128x128 .f32 := Host.absf main_arg7
  let main_cst_12 : FVec F S_ .f32 := constant S_ .f32 0x7F800000#32
  let main_v35 : FVec F S128x128x128 .f32 := broadcastInDim S128x128x128 ![] bcast_S_S128x128x128 main_cst_12
  let main_v36 : IVec S128x128x128 1 := cmpf .olt main_v34 main_v35
  let main_c_13 : IVec S_ 1 := constantI S_ 1 1#1
  let main_v37 : IVec S_ 1 := (fun x v => Host.reduce IntOp.andi x v reducesTo_S128x128x128_S_d0_1_2 h_S_) main_v36 main_c_13
  let main_v38 : IVec S_ 1 := andi main_v33 main_v37
  main_v38

def fn_part1 {F : FTy → Type} [FloatOps F] (main_arg4 : FVec F S128 .f32) (main_arg5 : FVec F S128x768 .f32) (main_arg6 : FVec F S128 .f32) (main_arg7 : FVec F S128x128x128 .f32) (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x768 .f32 := Host.absf main_arg5
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S64x768 .f32) (main_arg1 : FVec F S64x768 .f32) (main_arg2 : FVec F S64x768 .f32) (main_arg3 : FVec F S128x768 .f32) (main_arg4 : FVec F S128 .f32) (main_arg5 : FVec F S128x768 .f32) (main_arg6 : FVec F S128 .f32) (main_arg7 : FVec F S128x128x128 .f32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S128x768 .f32 := Host.absf main_arg3
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_arg4 main_arg5 main_arg6 main_arg7 main_v13 main_v16
-- ==== Kernel.lean ====
abbrev S64x768 : Shape := ⟨2, ![64, 768]⟩
abbrev S128x768 : Shape := ⟨2, ![128, 768]⟩
abbrev S128 : Shape := ⟨1, ![128]⟩
abbrev S128x128x128 : Shape := ⟨3, ![128, 128, 128]⟩
abbrev S2x64x768 : Shape := ⟨3, ![2, 64, 768]⟩
abbrev S2x64x1 : Shape := ⟨3, ![2, 64, 1]⟩
abbrev S2x64x16384 : Shape := ⟨3, ![2, 64, 16384]⟩
abbrev S2x1x64 : Shape := ⟨3, ![2, 1, 64]⟩
abbrev S1x64x768 : Shape := ⟨3, ![1, 64, 768]⟩
abbrev S1x64x1 : Shape := ⟨3, ![1, 64, 1]⟩
abbrev S1x64x4096 : Shape := ⟨3, ![1, 64, 4096]⟩
abbrev S1x1x64 : Shape := ⟨3, ![1, 1, 64]⟩
abbrev S64x1 : Shape := ⟨2, ![64, 1]⟩
abbrev S64x4096 : Shape := ⟨2, ![64, 4096]⟩
abbrev S64 : Shape := ⟨1, ![64]⟩
abbrev S64x64 : Shape := ⟨2, ![64, 64]⟩
abbrev S1x64 : Shape := ⟨2, ![1, 64]⟩
abbrev S2x64 : Shape := ⟨2, ![2, 64]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S64x768, .f32⟩
  | .hbm, ⟨1, _⟩ => ⟨S64x768, .f32⟩
  | .hbm, ⟨2, _⟩ => ⟨S64x768, .f32⟩
  | .hbm, ⟨3, _⟩ => ⟨S128x768, .f32⟩
  | .hbm, ⟨4, _⟩ => ⟨S128, .f32⟩
  | .hbm, ⟨5, _⟩ => ⟨S128x768, .f32⟩
  | .hbm, ⟨6, _⟩ => ⟨S128, .f32⟩
  | .hbm, ⟨7, _⟩ => ⟨S128x128x128, .f32⟩
  | .hbm, ⟨8, _⟩ => ⟨S2x64x768, .f32⟩
  | .hbm, ⟨9, _⟩ => ⟨S2x64x768, .f32⟩
  | .hbm, ⟨10, _⟩ => ⟨S2x64x1, .f32⟩
  | .hbm, ⟨11, _⟩ => ⟨S2x64x1, .f32⟩
  | .hbm, ⟨12, _⟩ => ⟨S2x64x16384, .f32⟩
  | .hbm, ⟨13, _⟩ => ⟨S2x1x64, .f32⟩
  | .hbm, ⟨14, _⟩ => ⟨S2x64, .f32⟩
  | .hbm, ⟨15, _⟩ => ⟨S_, .f32⟩
  | .hbm, ⟨16, _⟩ => ⟨S64, .f32⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S1x64x768, .f32⟩
  | .local _ .vmem, ⟨4, _⟩ => ⟨S1x64x768, .f32⟩
  | .local _ .vmem, ⟨5, _⟩ => ⟨S1x64x1, .f32⟩
  | .local _ .vmem, ⟨6, _⟩ => ⟨S1x64x1, .f32⟩
  | .local _ .vmem, ⟨7, _⟩ => ⟨S1x64x768, .f32⟩
  | .local _ .vmem, ⟨8, _⟩ => ⟨S1x64x768, .f32⟩
  | .local _ .vmem, ⟨9, _⟩ => ⟨S1x64x1, .f32⟩
  | .local _ .vmem, ⟨10, _⟩ => ⟨S1x64x1, .f32⟩
  | .local _ .vmem, ⟨11, _⟩ => ⟨S1x64x4096, .f32⟩
  | .local _ .vmem, ⟨12, _⟩ => ⟨S1x64x4096, .f32⟩
  | .local _ .vmem, ⟨13, _⟩ => ⟨S1x1x64, .f32⟩
  | .local _ .vmem, ⟨14, _⟩ => ⟨S1x1x64, .f32⟩
  | .local _ .vmem, ⟨15, _⟩ => ⟨S64x1, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S128x768_S2x64x768 : S128x768.ShapeCasts S2x64x768
  shapeCasts_S128_S2x64x1 : S128.ShapeCasts S2x64x1
  shapeCasts_S128x128x128_S2x64x16384 : S128x128x128.ShapeCasts S2x64x16384
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  shapeCasts_S64_S64x1 : S64.ShapeCasts S64x1
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  inb_S64x768_S64x768_0_0 : ∀ a, (![0, 0] : Fin 2 → Nat) a + S64x768.size a ≤ S64x768.size a
  h_S64x768 : 0 < S64x768.numel
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  broadcasts_S64x1_S64x64 : S64x1.Broadcasts S64x64
  reduces_S64x64_S64 : S64x64.Reduces [0] S64
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S2x1x64_S2x64 : S2x1x64.ShapeCasts S2x64
  reducesTo_S2x64_S64_d0 : S2x64.ReducesTo [0] S64
  h_S_ : 0 < S_.numel
  dot_S64x768_S64x768_S64x64_1_1_0_0_n_n_wf : DotDims.WF S64x768 S64x768 S64x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x768.size a ≤ S2x64x768.size a
  hwx0_3 : ∀ i : grid0.Coords, EltTy.bits .f32 = 32 ∨ (Rect.block (s := S2x64x768) S1x64x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x768.size a ≤ S2x64x768.size a
  hwx0_5 : ∀ i : grid0.Coords, EltTy.bits .f32 = 32 ∨ (Rect.block (s := S2x64x768) S1x64x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S2x64x1.size a
  hwx0_6 : ∀ i : grid0.Coords, EltTy.bits .f32 = 32 ∨ (Rect.block (s := S2x64x1) S1x64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x4096.size a ≤ S2x64x16384.size a
  hwx0_7 : ∀ i : grid0.Coords, EltTy.bits .f32 = 32 ∨ (Rect.block (s := S2x64x16384) S1x64x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x64.size a ≤ S2x1x64.size a
  hwx0_8 : ∀ i : grid0.Coords, EltTy.bits .f32 = 32 ∨ (Rect.block (s := S2x1x64) S1x1x64.size (cc0_transform_8 i) (hinb0_8 i)).WholeWords (EltTy.packing .f32)

variable [Facts₀]

def dot_S64x768_S64x768_S64x64_1_1_0_0_n_n : DotDims S64x768 S64x768 S64x64 where
  lhsContracting := [1]
  rhsContracting := [1]
  lhsNonContracting := [0]
  rhsNonContracting := [0]
  lhsBatch := []
  rhsBatch := []
  wf := dot_S64x768_S64x768_S64x64_1_1_0_0_n_n_wf

abbrev win0_0 : Pipeline.Window sig grid0 :=
  Pipeline.Window.ofSpec (Memref.whole main_arg0) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x768 : Shape := ⟨2, ![64, 768]⟩
abbrev S128x768 : Shape := ⟨2, ![128, 768]⟩
abbrev S128 : Shape := ⟨1, ![128]⟩
abbrev S128x128x128 : Shape := ⟨3, ![128, 128, 128]⟩
abbrev S768x128 : Shape := ⟨2, ![768, 128]⟩
abbrev S64x128 : Shape := ⟨2, ![64, 128]⟩
abbrev S1x128 : Shape := ⟨2, ![1, 128]⟩
abbrev S1x128x128x128 : Shape := ⟨4, ![1, 128, 128, 128]⟩
abbrev S64x128x1x1 : Shape := ⟨4, ![64, 128, 1, 1]⟩
abbrev S64x128x128x128 : Shape := ⟨4, ![64, 128, 128, 128]⟩
abbrev S_ : Shape := ⟨0, ![]⟩
abbrev S64x128x128 : Shape := ⟨3, ![64, 128, 128]⟩
abbrev S64x128x1 : Shape := ⟨3, ![64, 128, 1]⟩
abbrev S64 : Shape := ⟨1, ![64]⟩

abbrev nBuf : Space → Nat
  | .hbm => 39
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S64x768, .f32⟩
  | .hbm, ⟨2, _⟩ => ⟨S64x768, .f32⟩
  | .hbm, ⟨3, _⟩ => ⟨S128x768, .f32⟩
  | .hbm, ⟨4, _⟩ => ⟨S128, .f32⟩
  | .hbm, ⟨5, _⟩ => ⟨S128x768, .f32⟩
  | .hbm, ⟨6, _⟩ => ⟨S128, .f32⟩
  | .hbm, ⟨7, _⟩ => ⟨S128x128x128, .f32⟩
  | .hbm, ⟨8, _⟩ => ⟨S768x128, .f32⟩
  | .hbm, ⟨9, _⟩ => ⟨S64x128, .f32⟩
  | .hbm, ⟨10, _⟩ => ⟨S1x128, .f32⟩
  | .hbm, ⟨11, _⟩ => ⟨S64x128, .f32⟩
  | .hbm, ⟨12, _⟩ => ⟨S64x128, .f32⟩
  | .hbm, ⟨13, _⟩ => ⟨S768x128, .f32⟩
  | .hbm, ⟨14, _⟩ => ⟨S64x128, .f32⟩
  | .hbm, ⟨15, _⟩ => ⟨S1x128, .f32⟩
  | .hbm, ⟨16, _⟩ => ⟨S64x128, .f32⟩
  | .hbm, ⟨17, _⟩ => ⟨S64x128, .f32⟩
  | .hbm, ⟨18, _⟩ => ⟨S768x128, .f32⟩
  | .hbm, ⟨19, _⟩ => ⟨S64x128, .f32⟩
  | .hbm, ⟨20, _⟩ => ⟨S1x128, .f32⟩
  | .hbm, ⟨21, _⟩ => ⟨S64x128, .f32⟩
  | .hbm, ⟨22, _⟩ => ⟨S64x128, .f32⟩
  | .hbm, ⟨23, _⟩ => ⟨S1x128x128x128, .f32⟩
  | .hbm, ⟨24, _⟩ => ⟨S64x128x1x1, .f32⟩
  | .hbm, ⟨25, _⟩ => ⟨S64x128x128x128, .f32⟩
  | .hbm, ⟨26, _⟩ => ⟨S64x128x128x128, .f32⟩
  | .hbm, ⟨27, _⟩ => ⟨S64x128x128x128, .f32⟩
  | .hbm, ⟨28, _⟩ => ⟨S_, .f32⟩
  | .hbm, ⟨29, _⟩ => ⟨S64x128x128, .f32⟩
  | .hbm, ⟨30, _⟩ => ⟨S64x128x1, .f32⟩
  | .hbm, ⟨31, _⟩ => ⟨S64x128x128, .f32⟩
  | .hbm, ⟨32, _⟩ => ⟨S64x128x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64, .f32⟩
  | .hbm, ⟨38, _⟩ => ⟨S64, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  transposes_S128x768_S768x128_1_0 : S128x768.Transposes [1, 0] S768x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S128x128x128_S1x128x128x128_1_2_3 : S128x128x128.BroadcastsInDim S1x128x128x128 (![1, 2, 3] : Fin 3 → Fin S1x128x128x128.rank)
  bcast_S64x128_S64x128x1x1_0_1 : S64x128.BroadcastsInDim S64x128x1x1 (![0, 1] : Fin 2 → Fin S64x128x1x1.rank)
  bcast_S1x128x128x128_S64x128x128x128_0_1_2_3 : S1x128x128x128.BroadcastsInDim S64x128x128x128 (![0, 1, 2, 3] : Fin 4 → Fin S64x128x128x128.rank)
  bcast_S64x128x1x1_S64x128x128x128_0_1_2_3 : S64x128x1x1.BroadcastsInDim S64x128x128x128 (![0, 1, 2, 3] : Fin 4 → Fin S64x128x128x128.rank)
  reducesTo_S64x128x128x128_S64x128x128_d3 : S64x128x128x128.ReducesTo [3] S64x128x128
  h_S_ : 0 < S_.numel
  bcast_S64x128_S64x128x1_0_1 : S64x128.BroadcastsInDim S64x128x1 (![0, 1] : Fin 2 → Fin S64x128x1.rank)
  bcast_S64x128x1_S64x128x128_0_1_2 : S64x128x1.BroadcastsInDim S64x128x128 (![0, 1, 2] : Fin 3 → Fin S64x128x128.rank)
  reducesTo_S64x128x128_S64x128_d2 : S64x128x128.ReducesTo [2] S64x128
  reducesTo_S64x128_S64_d1 : S64x128.ReducesTo [1] S64
  dot_S64x768_S768x128_S64x128_1_0_0_1_n_n_wf : DotDims.WF S64x768 S768x128 S64x128 [1] [0] [0] [1] [] []

variable [Facts₀]

def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf

class Facts : Prop extends Facts₀ where

variable [Facts]
-- ==== Proof.KPieces.lean ====
/-
  What one run of the kernel body leaves behind, as the body's own arithmetic.

  The body has three control cases over the grid: the first point of a run of four (the scratch column is reset, then
  the chunk's row sums are added), a middle point (the row sums are added to what the column held), and the last point
  (the same update, after which the output block is computed from the projections and the updated column). In each
  case the column ends as ONE store covering it whole, so what it holds is that store's value, whose loads read the
  input blocks whole; a load of the column after a store of the same run reads the stored value.
-/
import proofs.«410714_j3753801416764_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KValue

open Cert.KernelIdeal Cert.KernelIdeal.Gen

variable {F : FTy → Type} [FloatOps F]

/-- The zero offsets of a rank-2 whole-buffer access, however they are spelt. -/
theorem hz2 : (![0, 0] : Fin 2 → Nat) = fun _ => 0 := funext fun a => by fin_cases a <;> rfl
/-- The same at rank 3. -/
theorem hz3 : (![0, 0, 0] : Fin 3 → Nat) = fun _ => 0 := funext fun a => by fin_cases a <;> rfl

/-- A middle point leaves in the column the old column plus the chunk's row sums. -/
theorem scratch_B (c : Dev nD) (i : grid0.Coords) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S1x64x768 .f32) (harg5 : arg5.IsWhole) (arg6 : Memref sig .tc .vmem S1x64x1 .f32) (harg6 : arg6.IsWhole) (arg7 : Memref sig .tc .vmem S1x64x768 .f32) (harg7 : arg7.IsWhole) (arg8 : Memref sig .tc .vmem S1x64x1 .f32) (harg8 : arg8.IsWhole) (arg9 : Memref sig .tc .vmem S1x64x4096 .f32) (harg9 : arg9.IsWhole) (arg10 : Memref sig .tc .vmem S1x1x64 .f32) (harg10 : arg10.IsWhole) (arg11 : Memref sig .tc .vmem S64x1 .f32) (harg11 : arg11.IsWhole) (hc0 : ¬cond0_0 i) (hc1 : ¬cond0_1 i)
    (x0 : Vec F S64x768 .f32) (x1 : Vec F S64x768 .f32) (x2 : Vec F S64x768 .f32) (x3 : Vec F S1x64x768 .f32) (x4 : Vec F S1x64x1 .f32) (x5 : Vec F S1x64x768 .f32) (x6 : Vec F S1x64x1 .f32) (x7 : Vec F S1x64x4096 .f32) (xs0 : Vec F S64x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 xs0 x7 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg9.read_unread, harg11.read_unread, View.ld_unit_zero (S := S64x1) hz2, View.ld_unit_zero (S := S1x64x4096) hz3]

/-- The first point of a run leaves the chunk's row sums added to the zero column it has just stored. -/
theorem scratch_A (c : Dev nD) (i : grid0.Coords) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S1x64x768 .f32) (harg5 : arg5.IsWhole) (arg6 : Memref sig .tc .vmem S1x64x1 .f32) (harg6 : arg6.IsWhole) (arg7 : Memref sig .tc .vmem S1x64x768 .f32) (harg7 : arg7.IsWhole) (arg8 : Memref sig .tc .vmem S1x64x1 .f32) (harg8 : arg8.IsWhole) (arg9 : Memref sig .tc .vmem S1x64x4096 .f32) (harg9 : arg9.IsWhole) (arg10 : Memref sig .tc .vmem S1x1x64 .f32) (harg10 : arg10.IsWhole) (arg11 : Memref sig .tc .vmem S64x1 .f32) (harg11 : arg11.IsWhole) (hc0 : cond0_0 i) (hc1 : ¬cond0_1 i)
    (x0 : Vec F S64x768 .f32) (x1 : Vec F S64x768 .f32) (x2 : Vec F S64x768 .f32) (x3 : Vec F S1x64x768 .f32) (x4 : Vec F S1x64x1 .f32) (x5 : Vec F S1x64x768 .f32) (x6 : Vec F S1x64x1 .f32) (x7 : Vec F S1x64x4096 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 (k0_pay1 (F := F)) x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S64x1) hz2, View.readCov_unit_zero (S := S64x1) _ hz2]
  simp only [View.readAt_eq_ld, harg9.read_unread, View.ld_unit_zero (S := S1x64x4096) hz3]

/-- The last point of a run updates the column as a middle point does. -/
theorem scratch_C (c : Dev nD) (i : grid0.Coords) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S1x64x768 .f32) (harg5 : arg5.IsWhole) (arg6 : Memref sig .tc .vmem S1x64x1 .f32) (harg6 : arg6.IsWhole) (arg7 : Memref sig .tc .vmem S1x64x768 .f32) (harg7 : arg7.IsWhole) (arg8 : Memref sig .tc .vmem S1x64x1 .f32) (harg8 : arg8.IsWhole) (arg9 : Memref sig .tc .vmem S1x64x4096 .f32) (harg9 : arg9.IsWhole) (arg10 : Memref sig .tc .vmem S1x1x64 .f32) (harg10 : arg10.IsWhole) (arg11 : Memref sig .tc .vmem S64x1 .f32) (harg11 : arg11.IsWhole) (hc0 : ¬cond0_0 i) (hc1 : cond0_1 i)
    (x0 : Vec F S64x768 .f32) (x1 : Vec F S64x768 .f32) (x2 : Vec F S64x768 .f32) (x3 : Vec F S1x64x768 .f32) (x4 : Vec F S1x64x1 .f32) (x5 : Vec F S1x64x768 .f32) (x6 : Vec F S1x64x1 .f32) (x7 : Vec F S1x64x4096 .f32) (xs0 : Vec F S64x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 xs0 x7 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg9.read_unread, harg11.read_unread, View.ld_unit_zero (S := S64x1) hz2, View.ld_unit_zero (S := S1x64x4096) hz3]

/-- The last point stores, in the output block, the body's result on the three projections' operands and the column
    as it has just updated it. -/
theorem out_C (c : Dev nD) (i : grid0.Coords) (arg2 : Memref sig .tc .vmem S64x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S1x64x768 .f32) (harg5 : arg5.IsWhole) (arg6 : Memref sig .tc .vmem S1x64x1 .f32) (harg6 : arg6.IsWhole) (arg7 : Memref sig .tc .vmem S1x64x768 .f32) (harg7 : arg7.IsWhole) (arg8 : Memref sig .tc .vmem S1x64x1 .f32) (harg8 : arg8.IsWhole) (arg9 : Memref sig .tc .vmem S1x64x4096 .f32) (harg9 : arg9.IsWhole) (arg10 : Memref sig .tc .vmem S1x1x64 .f32) (harg10 : arg10.IsWhole) (arg11 : Memref sig .tc .vmem S64x1 .f32) (harg11 : arg11.IsWhole) (hc0 : ¬cond0_0 i) (hc1 : cond0_1 i)
    (x0 : Vec F S64x768 .f32) (x1 : Vec F S64x768 .f32) (x2 : Vec F S64x768 .f32) (x3 : Vec F S1x64x768 .f32) (x4 : Vec F S1x64x1 .f32) (x5 : Vec F S1x64x768 .f32) (x6 : Vec F S1x64x1 .f32) (x7 : Vec F S1x64x4096 .f32) (xs0 : Vec F S64x1 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay4 x3 x0 x4 x3 x2 x4 x5 x1 x6 (k0_pay2 xs0 x7)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg11.read_unread, View.ld_unit_zero (S := S64x1) hz2, View.ld_unit_zero (S := S64x768) hz2, View.ld_unit_zero (S := S1x64x4096) hz3, View.ld_unit_zero (S := S1x64x768) hz3, View.ld_unit_zero (S := S1x64x1) hz3, View.readCov_unit_zero (S := S64x1) _ hz2]

end Cert.KernelIdeal.KValue

end
-- ==== Proof.KChain.lean ====
/-
  What the scratch column and the output block hold after each grid point, in terms of the body's arithmetic.

  The grid is two runs of four points. At the first point of a run the column is reset and the row sums of that
  point's chunk of the core are added to it; at each later point the row sums of the point's chunk are added to
  what the point before left. At the last point of a run the output block is computed from the projections and the
  column just updated.
-/
import proofs.«410714_j3753801416764_3_alg».proof.Proof.KPieces

set_option maxRecDepth 16384

noncomputable section

open Idealize.ShloMosaic Idealize.ShloMosaic.TcCoe Idealize.ShloMosaic.Tactic Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The input blocks of a point, at their literal shapes: the three sources (whole), this half's weights and
    biases, and this point's chunk of this half's rows of the core. -/
abbrev hsB (c : Dev nD) (t : Fin cfg0.N) : Vec F S64x768 .f32 := iblk m c 0 t
abbrev rsB (c : Dev nD) (t : Fin cfg0.N) : Vec F S64x768 .f32 := iblk m c 1 t
abbrev tsB (c : Dev nD) (t : Fin cfg0.N) : Vec F S64x768 .f32 := iblk m c 2 t
abbrev weB (c : Dev nD) (t : Fin cfg0.N) : Vec F S1x64x768 .f32 := iblk m c 3 t
abbrev beB (c : Dev nD) (t : Fin cfg0.N) : Vec F S1x64x1 .f32 := iblk m c 4 t
abbrev wrB (c : Dev nD) (t : Fin cfg0.N) : Vec F S1x64x768 .f32 := iblk m c 5 t
abbrev brB (c : Dev nD) (t : Fin cfg0.N) : Vec F S1x64x1 .f32 := iblk m c 6 t
abbrev coB (c : Dev nD) (t : Fin cfg0.N) : Vec F S1x64x4096 .f32 := iblk m c 7 t

/-- The point before. -/
abbrev prev (t : Fin cfg0.N) : Fin cfg0.N := ⟨t.val - 1, Nat.lt_of_le_of_lt (Nat.sub_le _ _) t.isLt⟩

/-- The scratch column after point `t`. -/
abbrev col (c : Dev nD) (t : Fin cfg0.N) : Vec F S64x1 .f32 := (outsAt0 m c t.val t.isLt).2

/-- At the first point of a run the column is the chunk's row sums added to zero. -/
theorem col_first (c : Dev nD) (t : Fin cfg0.N) (h0 : t.val % 4 = 0) :
    col m c t = k0_pay2 (k0_pay1 (F := F)) (coB m c t) := by
  have h1 : ¬t.val % 4 = 3 := by omega
  show (outsAt0 m c t.val t.isLt).2 = _
  rw [outsAt0_A m c t h0 h1]
  dsimp only
  exact scratch_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- At a later point it is the chunk's row sums added to what the point before left. -/
theorem col_next (c : Dev nD) (t : Fin cfg0.N) (h0 : ¬t.val % 4 = 0) :
    col m c t = k0_pay2 (col m c (prev t)) (coB m c t) := by
  show (outsAt0 m c t.val t.isLt).2 = _
  by_cases h1 : t.val % 4 = 3
  · rw [outsAt0_C m c t h0 h1]
    dsimp only
    exact scratch_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  · rw [outsAt0_B m c t h0 h1]
    dsimp only
    exact scratch_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- At the last point of a run the output block is the body's result on the projections' operands and the column
    as this point leaves it. -/
theorem out_last (c : Dev nD) (t : Fin cfg0.N) (h1 : t.val % 4 = 3) :
    (outsAt0 m c t.val t.isLt).1
      = k0_pay3 (k0_pay4 (weB m c t) (hsB m c t) (beB m c t) (weB m c t) (tsB m c t) (beB m c t) (wrB m c t) (rsB m c t)
          (brB m c t) (col m c t)) := by
  have h0 : ¬t.val % 4 = 0 := by omega
  rw [col_next m c t h0, outsAt0_C m c t h0 h1]
  dsimp only
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

end Cert.KernelIdeal.KValue

end
-- ==== Proof.KBlocks.lean ====
/-
  The blocks a grid point reads, in terms of the argument arrays.

  Point t belongs to half p = t / 4 of the rows and to chunk k = t % 4 of the flattened (j, k) positions. The sources
  are read whole. The weights and biases arrive reshaped [128, …] → [2, 64, …], so row r of half p is row 64 p + r.
  The core arrives reshaped [128, 128, 128] → [2, 64, 16384], so entry (p, r, q) is the core at row 64 p + r and
  flattened position q, and the point's chunk holds the positions 4096 k + l.
-/
import proofs.«410714_j3753801416764_3_alg».proof.Proof.KChain
import Idealize.ShloMosaic.Lib.StableHlo.Run
import Idealize.ShloMosaic.Lib.ValueIdx

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- Which block of its array each window holds at each point: half `t / 4` on the leading axis of the reshaped
    operands, chunk `t % 4` on the core's last axis, block 0 elsewhere. Decided over the eight points. -/
theorem idx_facts : ∀ t : Fin cfg0.N,
    win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 3) = t.val / 4 ∧ win0_3.index t (1 : Fin 3) = 0 ∧ win0_3.index t (2 : Fin 3) = 0 ∧ win0_4.index t (0 : Fin 3) = t.val / 4 ∧ win0_4.index t (1 : Fin 3) = 0 ∧ win0_4.index t (2 : Fin 3) = 0 ∧ win0_5.index t (0 : Fin 3) = t.val / 4 ∧ win0_5.index t (1 : Fin 3) = 0 ∧ win0_5.index t (2 : Fin 3) = 0 ∧ win0_6.index t (0 : Fin 3) = t.val / 4 ∧ win0_6.index t (1 : Fin 3) = 0 ∧ win0_6.index t (2 : Fin 3) = 0 ∧ win0_7.index t (0 : Fin 3) = t.val / 4 ∧ win0_7.index t (1 : Fin 3) = 0 ∧ win0_7.index t (2 : Fin 3) = t.val % 4 ∧ win0_8.index t (0 : Fin 3) = t.val / 4 ∧ win0_8.index t (1 : Fin 3) = 0 ∧ win0_8.index t (2 : Fin 3) = 0 :=
  (by decide +kernel : ∀ t : Fin grid0.N, _)

/-- The half of the rows a point works on. -/
abbrev half (t : Fin cfg0.N) : Fin 2 := ⟨t.val / 4, by have := t.isLt; have : cfg0.N = 8 := N_0; omega⟩
/-- The chunk of flattened positions a point works on. -/
abbrev chunkOf (t : Fin cfg0.N) : Fin 4 := ⟨t.val % 4, by omega⟩

/-! ## The reshaped operands as the region finds them -/

theorem V_main_v0 (c : Dev nD) : V m c main_v0 = shapeCast S2x64x768 (m ((c : Thread nD τ).loc main_arg3)) shapeCasts_S128x768_S2x64x768 := by
  show StableHlo.after hostOps0 (fun b => m (c, b)) (Proc.devRef .tc main_v0) = _
  after_results
  rfl
theorem V_main_v1 (c : Dev nD) : V m c main_v1 = shapeCast S2x64x768 (m ((c : Thread nD τ).loc main_arg5)) shapeCasts_S128x768_S2x64x768 := by
  show StableHlo.after hostOps0 (fun b => m (c, b)) (Proc.devRef .tc main_v1) = _
  after_results
  rfl
theorem V_main_v2 (c : Dev nD) : V m c main_v2 = shapeCast S2x64x1 (m ((c : Thread nD τ).loc main_arg4)) shapeCasts_S128_S2x64x1 := by
  show StableHlo.after hostOps0 (fun b => m (c, b)) (Proc.devRef .tc main_v2) = _
  after_results
  rfl
theorem V_main_v3 (c : Dev nD) : V m c main_v3 = shapeCast S2x64x1 (m ((c : Thread nD τ).loc main_arg6)) shapeCasts_S128_S2x64x1 := by
  show StableHlo.after hostOps0 (fun b => m (c, b)) (Proc.devRef .tc main_v3) = _
  after_results
  rfl
theorem V_main_v4 (c : Dev nD) : V m c main_v4 = shapeCast S2x64x16384 (m ((c : Thread nD τ).loc main_arg7)) shapeCasts_S128x128x128_S2x64x16384 := by
  show StableHlo.after hostOps0 (fun b => m (c, b)) (Proc.devRef .tc main_v4) = _
  after_results
  rfl

/-! ## The blocks at an index -/

theorem hsB_at (c : Dev nD) (t : Fin cfg0.N) (b : Fin 64) (h : Fin 768) :
    hsB m c t (ix2 b h) = m ((c : Thread nD τ).loc main_arg0) (ix2 b h) := by
  obtain ⟨h00, h01, h10, h11, h20, h21, h30, h31, h32, h40, h41, h42, h50, h51, h52, h60, h61, h62, h70, h71, h72, h80, h81, h82⟩ := idx_facts t
  unfold hsB iblk
  rw [View.read_apply]
  show V m c main_arg0 _ = _
  rw [V_main_arg0]
  congr 1
  funext a
  apply Fin.ext
  match a with
  | ⟨0, _⟩ => show win0_0.index t (0 : Fin 2) * 64 + 1 * b.val = b.val; rw [h00]; omega
  | ⟨1, _⟩ => show win0_0.index t (1 : Fin 2) * 768 + 1 * h.val = h.val; rw [h01]; omega

theorem rsB_at (c : Dev nD) (t : Fin cfg0.N) (b : Fin 64) (h : Fin 768) :
    rsB m c t (ix2 b h) = m ((c : Thread nD τ).loc main_arg1) (ix2 b h) := by
  obtain ⟨h00, h01, h10, h11, h20, h21, h30, h31, h32, h40, h41, h42, h50, h51, h52, h60, h61, h62, h70, h71, h72, h80, h81, h82⟩ := idx_facts t
  unfold rsB iblk
  rw [View.read_apply]
  show V m c main_arg1 _ = _
  rw [V_main_arg1]
  congr 1
  funext a
  apply Fin.ext
  match a with
  | ⟨0, _⟩ => show win0_1.index t (0 : Fin 2) * 64 + 1 * b.val = b.val; rw [h10]; omega
  | ⟨1, _⟩ => show win0_1.index t (1 : Fin 2) * 768 + 1 * h.val = h.val; rw [h11]; omega

theorem tsB_at (c : Dev nD) (t : Fin cfg0.N) (b : Fin 64) (h : Fin 768) :
    tsB m c t (ix2 b h) = m ((c : Thread nD τ).loc main_arg2) (ix2 b h) := by
  obtain ⟨h00, h01, h10, h11, h20, h21, h30, h31, h32, h40, h41, h42, h50, h51, h52, h60, h61, h62, h70, h71, h72, h80, h81, h82⟩ := idx_facts t
  unfold tsB iblk
  rw [View.read_apply]
  show V m c main_arg2 _ = _
  rw [V_main_arg2]
  congr 1
  funext a
  apply Fin.ext
  match a with
  | ⟨0, _⟩ => show win0_2.index t (0 : Fin 2) * 64 + 1 * b.val = b.val; rw [h20]; omega
  | ⟨1, _⟩ => show win0_2.index t (1 : Fin 2) * 768 + 1 * h.val = h.val; rw [h21]; omega

theorem weB_at (c : Dev nD) (t : Fin cfg0.N) (r : Fin 64) (h : Fin 768) :
    weB m c t (ix3 (0 : Fin 1) r h) = V m c main_v0 (ix3 (half t) r h) := by
  obtain ⟨h00, h01, h10, h11, h20, h21, h30, h31, h32, h40, h41, h42, h50, h51, h52, h60, h61, h62, h70, h71, h72, h80, h81, h82⟩ := idx_facts t
  unfold weB iblk
  rw [View.read_apply]
  show V m c main_v0 _ = _
  congr 1
  funext a
  apply Fin.ext
  match a with
  | ⟨0, _⟩ => show win0_3.index t (0 : Fin 3) * 1 + 1 * 0 = t.val / 4; rw [h30]; omega
  | ⟨1, _⟩ => show win0_3.index t (1 : Fin 3) * 64 + 1 * r.val = r.val; rw [h31]; omega
  | ⟨2, _⟩ => show win0_3.index t (2 : Fin 3) * 768 + 1 * h.val = h.val; rw [h32]; omega

theorem wrB_at (c : Dev nD) (t : Fin cfg0.N) (r : Fin 64) (h : Fin 768) :
    wrB m c t (ix3 (0 : Fin 1) r h) = V m c main_v1 (ix3 (half t) r h) := by
  obtain ⟨h00, h01, h10, h11, h20, h21, h30, h31, h32, h40, h41, h42, h50, h51, h52, h60, h61, h62, h70, h71, h72, h80, h81, h82⟩ := idx_facts t
  unfold wrB iblk
  rw [View.read_apply]
  show V m c main_v1 _ = _
  congr 1
  funext a
  apply Fin.ext
  match a with
  | ⟨0, _⟩ => show win0_5.index t (0 : Fin 3) * 1 + 1 * 0 = t.val / 4; rw [h50]; omega
  | ⟨1, _⟩ => show win0_5.index t (1 : Fin 3) * 64 + 1 * r.val = r.val; rw [h51]; omega
  | ⟨2, _⟩ => show win0_5.index t (2 : Fin 3) * 768 + 1 * h.val = h.val; rw [h52]; omega

theorem beB_at (c : Dev nD) (t : Fin cfg0.N) (r : Fin 64) (h : Fin 1) :
    beB m c t (ix3 (0 : Fin 1) r h) = V m c main_v2 (ix3 (half t) r h) := by
  obtain ⟨h00, h01, h10, h11, h20, h21, h30, h31, h32, h40, h41, h42, h50, h51, h52, h60, h61, h62, h70, h71, h72, h80, h81, h82⟩ := idx_facts t
  unfold beB iblk
  rw [View.read_apply]
  show V m c main_v2 _ = _
  congr 1
  funext a
  apply Fin.ext
  match a with
  | ⟨0, _⟩ => show win0_4.index t (0 : Fin 3) * 1 + 1 * 0 = t.val / 4; rw [h40]; omega
  | ⟨1, _⟩ => show win0_4.index t (1 : Fin 3) * 64 + 1 * r.val = r.val; rw [h41]; omega
  | ⟨2, _⟩ => show win0_4.index t (2 : Fin 3) * 1 + 1 * h.val = h.val; rw [h42]; omega

theorem brB_at (c : Dev nD) (t : Fin cfg0.N) (r : Fin 64) (h : Fin 1) :
    brB m c t (ix3 (0 : Fin 1) r h) = V m c main_v3 (ix3 (half t) r h) := by
  obtain ⟨h00, h01, h10, h11, h20, h21, h30, h31, h32, h40, h41, h42, h50, h51, h52, h60, h61, h62, h70, h71, h72, h80, h81, h82⟩ := idx_facts t
  unfold brB iblk
  rw [View.read_apply]
  show V m c main_v3 _ = _
  congr 1
  funext a
  apply Fin.ext
  match a with
  | ⟨0, _⟩ => show win0_6.index t (0 : Fin 3) * 1 + 1 * 0 = t.val / 4; rw [h60]; omega
  | ⟨1, _⟩ => show win0_6.index t (1 : Fin 3) * 64 + 1 * r.val = r.val; rw [h61]; omega
  | ⟨2, _⟩ => show win0_6.index t (2 : Fin 3) * 1 + 1 * h.val = h.val; rw [h62]; omega

theorem coB_at (c : Dev nD) (t : Fin cfg0.N) (r : Fin 64) (l : Fin 4096) :
    coB m c t (ix3 (0 : Fin 1) r l) = V m c main_v4 (ix3 (half t) r (⟨4096 * (t.val % 4) + l.val, by omega⟩ : Fin 16384)) := by
  obtain ⟨h00, h01, h10, h11, h20, h21, h30, h31, h32, h40, h41, h42, h50, h51, h52, h60, h61, h62, h70, h71, h72, h80, h81, h82⟩ := idx_facts t
  unfold coB iblk
  rw [View.read_apply]
  show V m c main_v4 _ = _
  congr 1
  funext a
  apply Fin.ext
  match a with
  | ⟨0, _⟩ => show win0_7.index t (0 : Fin 3) * 1 + 1 * 0 = t.val / 4; rw [h70]; omega
  | ⟨1, _⟩ => show win0_7.index t (1 : Fin 3) * 64 + 1 * r.val = r.val; rw [h71]; omega
  | ⟨2, _⟩ => show win0_7.index t (2 : Fin 3) * 4096 + 1 * l.val = 4096 * (t.val % 4) + l.val; rw [h72]; omega

end Cert.KernelIdeal.KValue

end
-- ==== Proof.KIdeal.lean ====
/-
  The body's arithmetic at an index, over the extended reals.

  * the reset column is 0;
  * the updated column at row r is the old entry plus the sum of the chunk's row r;
  * the block the last point stores, at batch entry b, is 0 minus the sum over the 64 rows r of
    head · rel · tail · column, each of head, rel, tail being a matrix product row-by-row with a source plus a bias.
-/
import proofs.«410714_j3753801416764_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KValue

open Cert.KernelIdeal Cert.KernelIdeal.Gen

/-- The reset column is zero. -/
theorem pay1_apply (r : Fin 64) : k0_pay1 (F := Ideal) (ix2 r (0 : Fin 1)) = 0 := by
  unfold k0_pay1
  rw [shapeCast_self]
  exact Ideal.ofBits_zero_f32

/-- The row sums of a chunk, as a column: at row r the sum of the chunk's row r. -/
theorem rowsum_apply (y : FVec Ideal S1x64x4096 .f32) (hc1 : S1x64x4096.ShapeCasts S64x4096) (hr : S64x4096.Reduces [1] S64)
    (hφ : FKind.Formats .f32) (hacc : (0x00000000#32 : BitVec 32) = FKind.add.neutral .f32 hφ) (hc2 : S64.ShapeCasts S64x1) (r : Fin 64) :
    shapeCast S64x1 (multiReduction (F := Ideal) .add [1] S64 (shapeCast S64x4096 y hc1) 0x00000000#32 hr hφ hacc) hc2 (ix2 r (0 : Fin 1))
      = ∑ l : Fin 4096, y (ix3 (0 : Fin 1) r l) := by
  refine (shapeCast_apply _ hc2 (ix2 r (0 : Fin 1)) (ix1 r) (by
    rw [Shape.rowMajor_val_one, Shape.rowMajor_val_two]
    show r.val = r.val * 1 + 0
    omega)).trans ?_
  refine (Ideal.multiReduction_add_single _ _ hr hφ hacc (ix1 r)).trans ?_
  refine Finset.sum_congr rfl fun l _ => ?_
  refine shapeCast_apply y hc1 _ (ix3 (0 : Fin 1) r l) (by
    rw [Shape.rowMajor_val_three, Shape.rowMajor_val_two]
    show (0 * 64 + r.val) * 4096 + l.val = r.val * 4096 + l.val
    omega)

/-- The updated column. -/
theorem pay2_apply (x : FVec Ideal S64x1 .f32) (y : FVec Ideal S1x64x4096 .f32) (r : Fin 64) :
    k0_pay2 x y (ix2 r (0 : Fin 1)) = x (ix2 r (0 : Fin 1)) + ∑ l : Fin 4096, y (ix3 (0 : Fin 1) r l) := by
  unfold k0_pay2
  dsimp only
  rw [shapeCast_self]
  exact congrArg (x (ix2 r (0 : Fin 1)) + ·) (rowsum_apply y _ _ _ _ _ r)

/-- The stored block is zero minus the row-reduced products, through two reshapes. -/
theorem pay3_apply (v : FVec Ideal S64 .f32) (b : Fin 64) :
    k0_pay3 v (ix3 (0 : Fin 1) (0 : Fin 1) b) = 0 - v (ix1 b) := by
  unfold k0_pay3
  refine (shapeCast_ab_1ab_apply _ _ (0 : Fin 1) (0 : Fin 1) b).trans ?_
  show Ideal.ofBits .f32 0x00000000#32 - shapeCast S1x64 v _ (ix2 (0 : Fin 1) b) = _
  rw [Ideal.ofBits_zero_f32]
  exact congrArg (0 - ·) (shapeCast_a_1a_apply v _ (0 : Fin 1) b)

/-! ## A weight-by-source product with its bias -/

theorem lhs_0 (i : S64x64.Idx) (q : dot_S64x768_S64x768_S64x64_1_1_0_0_n_n.contr.Idx) :
    (dot_S64x768_S64x768_S64x64_1_1_0_0_n_n.lhsIdx i q 0).val = (i 0).val := by
  unfold DotDims.lhsIdx
  rw [dif_neg (show ¬(0 : Fin S64x768.rank) ∈ dot_S64x768_S64x768_S64x64_1_1_0_0_n_n.lhsBatch by decide), dif_pos (show (0 : Fin S64x768.rank) ∈ dot_S64x768_S64x768_S64x64_1_1_0_0_n_n.lhsNonContracting by decide)]
  rfl
theorem lhs_1 (i : S64x64.Idx) (q : dot_S64x768_S64x768_S64x64_1_1_0_0_n_n.contr.Idx) :
    (dot_S64x768_S64x768_S64x64_1_1_0_0_n_n.lhsIdx i q 1).val = (q ⟨0, by decide⟩).val :=
  dot_S64x768_S64x768_S64x64_1_1_0_0_n_n.lhsIdx_val_of_single rfl i q
theorem rhs_0 (i : S64x64.Idx) (q : dot_S64x768_S64x768_S64x64_1_1_0_0_n_n.contr.Idx) :
    (dot_S64x768_S64x768_S64x64_1_1_0_0_n_n.rhsIdx i q 0).val = (i 1).val := by
  unfold DotDims.rhsIdx
  rw [dif_neg (show ¬(0 : Fin S64x768.rank) ∈ dot_S64x768_S64x768_S64x64_1_1_0_0_n_n.rhsBatch by decide), dif_pos (show (0 : Fin S64x768.rank) ∈ dot_S64x768_S64x768_S64x64_1_1_0_0_n_n.rhsNonContracting by decide)]
  rfl
theorem rhs_1 (i : S64x64.Idx) (q : dot_S64x768_S64x768_S64x64_1_1_0_0_n_n.contr.Idx) :
    (dot_S64x768_S64x768_S64x64_1_1_0_0_n_n.rhsIdx i q 1).val = (q ⟨0, by decide⟩).val :=
  dot_S64x768_S64x768_S64x64_1_1_0_0_n_n.rhsIdx_val_of_single rfl i q

/-- A projection as the body computes it: the weights' block (one half, 64 rows) against a source, contracted over the
    768 features, plus the bias column broadcast along the batch. At (r, b): Σ_h W r h · src b h + bias r. -/
theorem proj_apply (w : FVec Ideal S1x64x768 .f32) (s : FVec Ideal S64x768 .f32) (bias : FVec Ideal S1x64x1 .f32)
    (hc1 : S1x64x768.ShapeCasts S64x768) (hc2 : S1x64x1.ShapeCasts S64x1) (hb : S64x1.Broadcasts S64x64) (r b : Fin 64) :
    addf (matmul (F := Ideal) dot_S64x768_S64x768_S64x64_1_1_0_0_n_n none (shapeCast S64x768 w hc1) s (constant S64x64 .f32 0x00000000#32))
        (broadcastTo S64x64 (shapeCast S64x1 bias hc2) hb) (ix2 r b)
      = (∑ h : Fin 768, w (ix3 (0 : Fin 1) r h) * s (ix2 b h)) + bias (ix3 (0 : Fin 1) r (0 : Fin 1)) := by
  show matmul (F := Ideal) dot_S64x768_S64x768_S64x64_1_1_0_0_n_n none (shapeCast S64x768 w hc1) s (constant S64x64 .f32 0x00000000#32) (ix2 r b)
      + broadcastTo S64x64 (shapeCast S64x1 bias hc2) hb (ix2 r b) = _
  congr 1
  · simp only [matmul]
    rw [Ideal.matmul_constant_zero_apply, ← Equiv.sum_comp (ValueIdx.contrEquiv1 dot_S64x768_S64x768_S64x64_1_1_0_0_n_n 768 rfl rfl).symm]
    refine Finset.sum_congr rfl fun k _ => ?_
    have hk := ValueIdx.contrEquiv1_symm_val dot_S64x768_S64x768_S64x64_1_1_0_0_n_n 768 rfl rfl k
    have el : dot_S64x768_S64x768_S64x64_1_1_0_0_n_n.lhsIdx (ix2 r b) ((ValueIdx.contrEquiv1 dot_S64x768_S64x768_S64x64_1_1_0_0_n_n 768 rfl rfl).symm k) = ix2 r k := funext fun a => Fin.ext (by
      match a with
      | ⟨0, _⟩ => exact lhs_0 _ _
      | ⟨1, _⟩ => exact (lhs_1 _ _).trans hk)
    have er : dot_S64x768_S64x768_S64x64_1_1_0_0_n_n.rhsIdx (ix2 r b) ((ValueIdx.contrEquiv1 dot_S64x768_S64x768_S64x64_1_1_0_0_n_n 768 rfl rfl).symm k) = ix2 b k := funext fun a => Fin.ext (by
      match a with
      | ⟨0, _⟩ => exact rhs_0 _ _
      | ⟨1, _⟩ => exact (rhs_1 _ _).trans hk)
    rw [el, er]
    exact congrArg (· * s (ix2 b k)) (shapeCast_1ab_ab_apply w hc1 r k)
  · refine (broadcastTo_apply _ hb (ix2 r b) (ix2 r (0 : Fin 1)) fun a => ?_).trans ?_
    · match a with
      | ⟨0, _⟩ => rfl
      | ⟨1, _⟩ => rfl
    · exact shapeCast_1ab_ab_apply bias hc2 r (0 : Fin 1)

/-- The row-reduced product of the three projections and the column, at batch entry b. -/
theorem pay4_apply (v15 : FVec Ideal S1x64x768 .f32) (v17 : FVec Ideal S64x768 .f32) (v19 : FVec Ideal S1x64x1 .f32)
    (v23 : FVec Ideal S1x64x768 .f32) (v25 : FVec Ideal S64x768 .f32) (v27 : FVec Ideal S1x64x1 .f32)
    (v31 : FVec Ideal S1x64x768 .f32) (v33 : FVec Ideal S64x768 .f32) (v35 : FVec Ideal S1x64x1 .f32)
    (v41 : FVec Ideal S64x1 .f32) (b : Fin 64) :
    k0_pay4 v15 v17 v19 v23 v25 v27 v31 v33 v35 v41 (ix1 b)
      = ∑ r : Fin 64,
          ((∑ h : Fin 768, v15 (ix3 (0 : Fin 1) r h) * v17 (ix2 b h)) + v19 (ix3 (0 : Fin 1) r (0 : Fin 1)))
            * ((∑ h : Fin 768, v31 (ix3 (0 : Fin 1) r h) * v33 (ix2 b h)) + v35 (ix3 (0 : Fin 1) r (0 : Fin 1)))
            * ((∑ h : Fin 768, v23 (ix3 (0 : Fin 1) r h) * v25 (ix2 b h)) + v27 (ix3 (0 : Fin 1) r (0 : Fin 1)))
            * v41 (ix2 r (0 : Fin 1)) := by
  unfold k0_pay4
  dsimp only
  refine (Ideal.multiReduction_add_single _ _ _ _ _ (ix1 b)).trans ?_
  refine Finset.sum_congr rfl fun r _ => ?_
  have e : reduces_S64x64_S64.lift (ix1 b) r = ix2 r b := funext fun a => Fin.ext (by
    match a with
    | ⟨0, _⟩ => rfl
    | ⟨1, _⟩ => rfl)
  rw [e]
  show (((_ : EReal) * _) * _) * _ = _
  refine congrArg₂ (· * ·) (congrArg₂ (· * ·) (congrArg₂ (· * ·) (proj_apply v15 v17 v19 _ _ _ r b) (proj_apply v31 v33 v35 _ _ _ r b))
    (proj_apply v23 v25 v27 _ _ _ r b)) ?_
  exact broadcastTo_apply v41 _ (ix2 r b) (ix2 r (0 : Fin 1)) fun a => by
    match a with
    | ⟨0, _⟩ => rfl
    | ⟨1, _⟩ => rfl

end Cert.KernelIdeal.KValue

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Energy.lean ====
/-
  The mathematics of the certificate, with no program in sight.

  For real arrays the Tucker energy is
      energy b = −Σ_i head b i · rel b i · tail b i · (Σ_j Σ_k core i j k),
  with head, rel, tail the affine projections  (Σ_h src b h · W i h) + bias i.

  Two arrangements of it over the extended reals are stated here and shown to be that one real number when every
  entry of every array is a real:

  * the nested form: multiply the core by head, sum over k; multiply by rel, sum over j; multiply by tail, sum
    over i; negate — each sum started from 0;
  * the collapsed form: the rows of the core are summed first, in four chunks of 4096 consecutive flattened
    positions (j, k) ↦ 128 j + k, added in order from 0; the 128 rows i = 64 p + r are split in two halves p,
    each half summed and subtracted from 0, and the two halves added from 0.

  Over the reals the two agree by distributivity and by re-indexing the sums; over the extended reals
  distributivity needs the entries to be finite, which is the only place the finiteness of the inputs is used.
-/
import proofs.«410714_j3753801416764_3_alg».proof.Proof.LibERealRows
import Idealize.ShloMosaic.Lib.ValueIdx
import Mathlib.Algebra.BigOperators.Fin
import Mathlib.Logic.Equiv.Fin.Basic

noncomputable section

namespace Cert.Energy

open Cert.ERealRows Idealize.ShloMosaic Idealize.ShloMosaic.ValueIdx

/-! ## Arrays as functions of their coordinates -/

/-- A rank-1 array read at its coordinate. -/
abbrev at1 {n0 : Nat} (x : (⟨1, ![n0]⟩ : Shape).Idx → EReal) : Fin n0 → EReal := fun a => x (ix1 a)
/-- A rank-2 array read at its coordinates. -/
abbrev at2 {n0 n1 : Nat} (x : (⟨2, ![n0, n1]⟩ : Shape).Idx → EReal) : Fin n0 → Fin n1 → EReal := fun a b => x (ix2 a b)
/-- A rank-3 array read at its coordinates. -/
abbrev at3 {n0 n1 n2 : Nat} (x : (⟨3, ![n0, n1, n2]⟩ : Shape).Idx → EReal) : Fin n0 → Fin n1 → Fin n2 → EReal :=
  fun a b c => x (ix3 a b c)

/-- Row `64 p + r` of the 128 rows. -/
def row (p : Fin 2) (r : Fin 64) : Fin 128 := ⟨64 * p.val + r.val, by omega⟩
/-- Flattened position `4096 t + l` among the 16384 positions of a row of the core. -/
def pos (t : Fin 4) (l : Fin 4096) : Fin 16384 := ⟨4096 * t.val + l.val, by omega⟩
/-- The two coordinates of a flattened position `128 j + k`. -/
def posJ (q : Fin 16384) : Fin 128 := ⟨q.val / 128, by omega⟩
def posK (q : Fin 16384) : Fin 128 := ⟨q.val % 128, by omega⟩

/-! ## Sums over a product of two finite ranges -/

/-- A sum over `Fin (m * n)` is the double sum over its quotient and remainder. -/
theorem sum_fin_mul {M : Type*} [AddCommMonoid M] (m n : ℕ) (g : Fin (m * n) → M) :
    ∑ q, g q = ∑ a : Fin m, ∑ b : Fin n, g (finProdFinEquiv (a, b)) := by
  rw [← finProdFinEquiv.sum_comp, Fintype.sum_prod_type]

/-- The 128 rows as two halves of 64. -/
theorem sum_rows {M : Type*} [AddCommMonoid M] (g : Fin 128 → M) : ∑ i, g i = ∑ p : Fin 2, ∑ r : Fin 64, g (row p r) := by
  rw [sum_fin_mul 2 64 g]
  refine Finset.sum_congr rfl fun p _ => Finset.sum_congr rfl fun r _ => congrArg g (Fin.ext ?_)
  show r.val + 64 * p.val = 64 * p.val + r.val
  omega

/-- A row of the core summed over (j, k) is its sum over the flattened positions, -/
theorem sum_jk {M : Type*} [AddCommMonoid M] (f : Fin 128 → Fin 128 → M) :
    ∑ j, ∑ k, f j k = ∑ q : Fin 16384, f (posJ q) (posK q) := by
  rw [sum_fin_mul 128 128 fun q => f (posJ q) (posK q)]
  refine Finset.sum_congr rfl fun j _ => Finset.sum_congr rfl fun k _ => ?_
  have hj : posJ (finProdFinEquiv (j, k)) = j := Fin.ext (by
    show (k.val + 128 * j.val) / 128 = j.val
    have := k.isLt; omega)
  have hk : posK (finProdFinEquiv (j, k)) = k := Fin.ext (by
    show (k.val + 128 * j.val) % 128 = k.val
    have := k.isLt; omega)
  rw [hj, hk]

/-- and that is the sum of its four chunks of 4096 positions. -/
theorem sum_chunks {M : Type*} [AddCommMonoid M] (g : Fin 16384 → M) :
    ∑ q, g q = (∑ l, g (pos 0 l)) + (∑ l, g (pos 1 l)) + (∑ l, g (pos 2 l)) + (∑ l, g (pos 3 l)) := by
  rw [sum_fin_mul 4 4096 g, Fin.sum_univ_four]
  have e : ∀ t : Fin 4, ∑ l : Fin 4096, g (finProdFinEquiv (t, l)) = ∑ l, g (pos t l) := fun t =>
    Finset.sum_congr rfl fun l _ => congrArg g (Fin.ext (by
      show l.val + 4096 * t.val = 4096 * t.val + l.val
      omega))
  rw [e 0, e 1, e 2, e 3]

/-! ## The energy over the reals -/

section Reals

variable (hs rs ts : Fin 64 → Fin 768 → ℝ) (We Wr : Fin 128 → Fin 768 → ℝ) (be br : Fin 128 → ℝ)
  (co : Fin 128 → Fin 128 → Fin 128 → ℝ)

/-- An affine projection `(Σ_h src b h · W i h) + bias i`. -/
def projR (W : Fin 128 → Fin 768 → ℝ) (bias : Fin 128 → ℝ) (src : Fin 64 → Fin 768 → ℝ) (b : Fin 64) (i : Fin 128) : ℝ :=
  (∑ h, src b h * W i h) + bias i

/-- The energy of batch entry `b`. -/
def energyR (b : Fin 64) : ℝ :=
  -(∑ i, projR We be hs b i * projR Wr br rs b i * projR We be ts b i * ∑ j, ∑ k, co i j k)

end Reals

/-! ## The two arrangements over the extended reals -/

section Arrangements

variable (hs rs ts : Fin 64 → Fin 768 → EReal) (We Wr : Fin 128 → Fin 768 → EReal) (be br : Fin 128 → EReal)
  (co : Fin 128 → Fin 128 → Fin 128 → EReal)

/-- The projection with the source on the left of each product. -/
def projN (W : Fin 128 → Fin 768 → EReal) (bias : Fin 128 → EReal) (src : Fin 64 → Fin 768 → EReal) (b : Fin 64) (i : Fin 128) : EReal :=
  (∑ h, src b h * W i h) + bias i

/-- The nested form. -/
def nested (b : Fin 64) : EReal :=
  -(0 + ∑ i, (0 + ∑ j, (0 + ∑ k, co i j k * projN We be hs b i) * projN Wr br rs b i) * projN We be ts b i)

/-- The projection with the weight on the left of each product. -/
def projC (W : Fin 128 → Fin 768 → EReal) (bias : Fin 128 → EReal) (src : Fin 64 → Fin 768 → EReal) (i : Fin 128) (b : Fin 64) : EReal :=
  (∑ h, W i h * src b h) + bias i

/-- One chunk of 4096 flattened positions of row `i` of the core. -/
def chunk (i : Fin 128) (t : Fin 4) : EReal := ∑ l : Fin 4096, co i (posJ (pos t l)) (posK (pos t l))

/-- The row sum of the core as the four chunks added in order from 0. -/
def rowSum (i : Fin 128) : EReal := 0 + chunk co i 0 + chunk co i 1 + chunk co i 2 + chunk co i 3

/-- One half of the rows, summed and subtracted from 0. -/
def half (p : Fin 2) (b : Fin 64) : EReal :=
  0 - ∑ r : Fin 64, projC We be hs (row p r) b * projC Wr br rs (row p r) b * projC We be ts (row p r) b * rowSum co (row p r)

/-- The collapsed form. -/
def collapsed (b : Fin 64) : EReal := 0 + ∑ p : Fin 2, half hs rs ts We Wr be br co p b

end Arrangements

/-! ## On real entries both are the energy -/

section Agree

variable (hs rs ts : Fin 64 → Fin 768 → ℝ) (We Wr : Fin 128 → Fin 768 → ℝ) (be br : Fin 128 → ℝ)
  (co : Fin 128 → Fin 128 → Fin 128 → ℝ)

theorem projN_coe (W : Fin 128 → Fin 768 → ℝ) (bias : Fin 128 → ℝ) (src : Fin 64 → Fin 768 → ℝ) (b : Fin 64) (i : Fin 128) :
    projN (fun i h => (W i h : EReal)) (fun i => (bias i : EReal)) (fun b h => (src b h : EReal)) b i = (projR W bias src b i : EReal) := by
  simp only [projN, projR, ← EReal.coe_mul, coe_sum, ← EReal.coe_add]

theorem projC_coe (W : Fin 128 → Fin 768 → ℝ) (bias : Fin 128 → ℝ) (src : Fin 64 → Fin 768 → ℝ) (b : Fin 64) (i : Fin 128) :
    projC (fun i h => (W i h : EReal)) (fun i => (bias i : EReal)) (fun b h => (src b h : EReal)) i b = (projR W bias src b i : EReal) := by
  simp only [projC, projR, ← EReal.coe_mul, coe_sum, ← EReal.coe_add]
  congr 2
  exact Finset.sum_congr rfl fun h _ => mul_comm _ _

/-- The nested form of real arrays is their energy: the factors that do not depend on the summed index leave each sum. -/
theorem nested_coe (b : Fin 64) :
    nested (fun b h => (hs b h : EReal)) (fun b h => (rs b h : EReal)) (fun b h => (ts b h : EReal))
      (fun i h => (We i h : EReal)) (fun i h => (Wr i h : EReal)) (fun i => (be i : EReal)) (fun i => (br i : EReal))
      (fun i j k => (co i j k : EReal)) b = (energyR hs rs ts We Wr be br co b : EReal) := by
  simp only [nested, projN_coe, zero_add, ← EReal.coe_mul, coe_sum, ← EReal.coe_neg]
  congr 2
  refine Finset.sum_congr rfl fun i _ => ?_
  simp only [← Finset.sum_mul]
  ring

/-- The row sum of a real core in four chunks is its sum over (j, k). -/
theorem rowSum_coe (i : Fin 128) :
    rowSum (fun i j k => (co i j k : EReal)) i = ((∑ j, ∑ k, co i j k : ℝ) : EReal) := by
  simp only [rowSum, chunk, zero_add, coe_sum, ← EReal.coe_add]
  congr 1
  rw [sum_jk (fun j k => co i j k), sum_chunks fun q => co i (posJ q) (posK q)]

/-- The collapsed form of real arrays is their energy. -/
theorem collapsed_coe (b : Fin 64) :
    collapsed (fun b h => (hs b h : EReal)) (fun b h => (rs b h : EReal)) (fun b h => (ts b h : EReal))
      (fun i h => (We i h : EReal)) (fun i h => (Wr i h : EReal)) (fun i => (be i : EReal)) (fun i => (br i : EReal))
      (fun i j k => (co i j k : EReal)) b = (energyR hs rs ts We Wr be br co b : EReal) := by
  simp only [collapsed, half, projC_coe, rowSum_coe, zero_add, zero_sub, ← EReal.coe_mul, coe_sum, ← EReal.coe_neg]
  congr 1
  rw [energyR, sum_rows, Finset.sum_neg_distrib]

end Agree

/-! ## On finite entries the two arrangements agree -/

/-- If every entry of every array is a real, the collapsed form and the nested form are equal. -/
theorem collapsed_eq_nested (hs rs ts : Fin 64 → Fin 768 → EReal) (We Wr : Fin 128 → Fin 768 → EReal) (be br : Fin 128 → EReal)
    (co : Fin 128 → Fin 128 → Fin 128 → EReal)
    (h1 : ∀ b h, ∃ x : ℝ, hs b h = x) (h2 : ∀ b h, ∃ x : ℝ, rs b h = x) (h3 : ∀ b h, ∃ x : ℝ, ts b h = x)
    (h4 : ∀ i h, ∃ x : ℝ, We i h = x) (h5 : ∀ i, ∃ x : ℝ, be i = x) (h6 : ∀ i h, ∃ x : ℝ, Wr i h = x)
    (h7 : ∀ i, ∃ x : ℝ, br i = x) (h8 : ∀ i j k, ∃ x : ℝ, co i j k = x) (b : Fin 64) :
    collapsed hs rs ts We Wr be br co b = nested hs rs ts We Wr be br co b := by
  choose hs' e1 using h1
  choose rs' e2 using h2
  choose ts' e3 using h3
  choose We' e4 using h4
  choose be' e5 using h5
  choose Wr' e6 using h6
  choose br' e7 using h7
  choose co' e8 using h8
  obtain rfl : hs = fun b h => (hs' b h : EReal) := funext fun b => funext fun h => e1 b h
  obtain rfl : rs = fun b h => (rs' b h : EReal) := funext fun b => funext fun h => e2 b h
  obtain rfl : ts = fun b h => (ts' b h : EReal) := funext fun b => funext fun h => e3 b h
  obtain rfl : We = fun i h => (We' i h : EReal) := funext fun i => funext fun h => e4 i h
  obtain rfl : be = fun i => (be' i : EReal) := funext fun i => e5 i
  obtain rfl : Wr = fun i h => (Wr' i h : EReal) := funext fun i => funext fun h => e6 i h
  obtain rfl : br = fun i => (br' i : EReal) := funext fun i => e7 i
  obtain rfl : co = fun i j k => (co' i j k : EReal) := funext fun i => funext fun j => funext fun k => e8 i j k
  rw [collapsed_coe, nested_coe]

end Cert.Energy

end
-- ==== Proof.KResult.lean ====
/-
  What the kernel's grid leaves, over the extended reals, in terms of the argument arrays.

  At the last point of the run of half p, the scratch column at row r holds the row sum of the core's row 64 p + r,
  as its four chunks added in order from zero; and the output block at batch entry b holds zero minus the sum over
  the half's 64 rows of head · rel · tail · (row sum) — the half's share of the collapsed form of the energy.
-/
import proofs.«410714_j3753801416764_3_alg».proof.Proof.KBlocks
import proofs.«410714_j3753801416764_3_alg».proof.Proof.KIdeal
import proofs.«410714_j3753801416764_3_alg».proof.Proof.Energy

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.KValue

open Cert.KernelIdeal Cert.KernelIdeal.Gen
open Cert.Energy (at1 at2 at3)

variable (m : (ℓ : Loc nD τ sig) → Buf (Elt Ideal) ℓ)

/-- The argument arrays, at their literal shapes. -/
abbrev A0 (c : Dev nD) : (⟨2, ![64, 768]⟩ : Shape).Idx → EReal := m ((c : Thread nD τ).loc main_arg0)
abbrev A1 (c : Dev nD) : (⟨2, ![64, 768]⟩ : Shape).Idx → EReal := m ((c : Thread nD τ).loc main_arg1)
abbrev A2 (c : Dev nD) : (⟨2, ![64, 768]⟩ : Shape).Idx → EReal := m ((c : Thread nD τ).loc main_arg2)
abbrev A3 (c : Dev nD) : (⟨2, ![128, 768]⟩ : Shape).Idx → EReal := m ((c : Thread nD τ).loc main_arg3)
abbrev A4 (c : Dev nD) : (⟨1, ![128]⟩ : Shape).Idx → EReal := m ((c : Thread nD τ).loc main_arg4)
abbrev A5 (c : Dev nD) : (⟨2, ![128, 768]⟩ : Shape).Idx → EReal := m ((c : Thread nD τ).loc main_arg5)
abbrev A6 (c : Dev nD) : (⟨1, ![128]⟩ : Shape).Idx → EReal := m ((c : Thread nD τ).loc main_arg6)
abbrev A7 (c : Dev nD) : (⟨3, ![128, 128, 128]⟩ : Shape).Idx → EReal := m ((c : Thread nD τ).loc main_arg7)

/-! ## The reshaped operands at an index -/

/-- Row r of half p of a reshaped weight matrix is row 64 p + r of the matrix. -/
theorem V0_at (c : Dev nD) (p : Fin 2) (r : Fin 64) (h : Fin 768) :
    V m c main_v0 (ix3 p r h) = at2 (A3 m c) (Cert.Energy.row p r) h := by
  rw [V_main_v0]
  refine shapeCast_apply _ _ (ix3 p r h) (ix2 (Cert.Energy.row p r) h) ?_
  rw [Shape.rowMajor_val_two, Shape.rowMajor_val_three]
  show (64 * p.val + r.val) * 768 + h.val = (p.val * 64 + r.val) * 768 + h.val
  omega
theorem V1_at (c : Dev nD) (p : Fin 2) (r : Fin 64) (h : Fin 768) :
    V m c main_v1 (ix3 p r h) = at2 (A5 m c) (Cert.Energy.row p r) h := by
  rw [V_main_v1]
  refine shapeCast_apply _ _ (ix3 p r h) (ix2 (Cert.Energy.row p r) h) ?_
  rw [Shape.rowMajor_val_two, Shape.rowMajor_val_three]
  show (64 * p.val + r.val) * 768 + h.val = (p.val * 64 + r.val) * 768 + h.val
  omega
/-- Entry r of half p of a reshaped bias is entry 64 p + r of the bias. -/
theorem V2_at (c : Dev nD) (p : Fin 2) (r : Fin 64) :
    V m c main_v2 (ix3 p r (0 : Fin 1)) = at1 (A4 m c) (Cert.Energy.row p r) := by
  rw [V_main_v2]
  refine shapeCast_apply _ _ (ix3 p r (0 : Fin 1)) (ix1 (Cert.Energy.row p r)) ?_
  rw [Shape.rowMajor_val_one, Shape.rowMajor_val_three]
  show 64 * p.val + r.val = (p.val * 64 + r.val) * 1 + 0
  omega
theorem V3_at (c : Dev nD) (p : Fin 2) (r : Fin 64) :
    V m c main_v3 (ix3 p r (0 : Fin 1)) = at1 (A6 m c) (Cert.Energy.row p r) := by
  rw [V_main_v3]
  refine shapeCast_apply _ _ (ix3 p r (0 : Fin 1)) (ix1 (Cert.Energy.row p r)) ?_
  rw [Shape.rowMajor_val_one, Shape.rowMajor_val_three]
  show 64 * p.val + r.val = (p.val * 64 + r.val) * 1 + 0
  omega
/-- Entry (p, r, q) of the reshaped core is the core at row 64 p + r and flattened position q. -/
theorem V4_at (c : Dev nD) (p : Fin 2) (r : Fin 64) (q : Fin 16384) :
    V m c main_v4 (ix3 p r q) = at3 (A7 m c) (Cert.Energy.row p r) (Cert.Energy.posJ q) (Cert.Energy.posK q) := by
  rw [V_main_v4]
  refine shapeCast_apply _ _ (ix3 p r q) (ix3 (Cert.Energy.row p r) (Cert.Energy.posJ q) (Cert.Energy.posK q)) ?_
  rw [Shape.rowMajor_val_three, Shape.rowMajor_val_three]
  show ((64 * p.val + r.val) * 128 + q.val / 128) * 128 + q.val % 128 = (p.val * 64 + r.val) * 16384 + q.val
  omega

/-! ## The scratch column at the end of a run -/

/-- The row sums of a point's chunk are the chunk of the core's rows the collapsed form names. -/
theorem chunk_at (c : Dev nD) (t : Fin cfg0.N) (p : Fin 2) (k : Fin 4) (hp : t.val / 4 = p.val) (hk : t.val % 4 = k.val) (r : Fin 64) :
    ∑ l : Fin 4096, coB m c t (ix3 (0 : Fin 1) r l) = Cert.Energy.chunk (at3 (A7 m c)) (Cert.Energy.row p r) k := by
  unfold Cert.Energy.chunk
  refine Finset.sum_congr rfl fun l _ => ?_
  have ep : half t = p := Fin.ext hp
  have e : (⟨4096 * (t.val % 4) + l.val, by omega⟩ : Fin 16384) = Cert.Energy.pos k l :=
    Fin.ext (by show 4096 * (t.val % 4) + l.val = 4096 * k.val + l.val; rw [hk])
  rw [coB_at, V4_at, ep, e]

/-- At the last point of a run the column holds the row sums of the half's rows of the core. -/
theorem col_flush (c : Dev nD) (t : Fin cfg0.N) (h3 : t.val % 4 = 3) (r : Fin 64) :
    col m c t (ix2 r (0 : Fin 1)) = Cert.Energy.rowSum (at3 (A7 m c)) (Cert.Energy.row (half t) r) := by
  have hN : cfg0.N = 8 := N_0
  have ht := t.isLt
  have g3 : ¬t.val % 4 = 0 := by omega
  have g2 : ¬(prev t).val % 4 = 0 := by show ¬(t.val - 1) % 4 = 0; omega
  have g1 : ¬(prev (prev t)).val % 4 = 0 := by show ¬(t.val - 1 - 1) % 4 = 0; omega
  have g0 : (prev (prev (prev t))).val % 4 = 0 := by show (t.val - 1 - 1 - 1) % 4 = 0; omega
  rw [col_next m c t g3, pay2_apply, col_next m c (prev t) g2, pay2_apply, col_next m c (prev (prev t)) g1, pay2_apply,
    col_first m c (prev (prev (prev t))) g0, pay2_apply, pay1_apply]
  rw [chunk_at m c t (half t) 3 rfl (by show t.val % 4 = 3; exact h3) r,
    chunk_at m c (prev t) (half t) 2 (by show (t.val - 1) / 4 = t.val / 4; omega) (by show (t.val - 1) % 4 = 2; omega) r,
    chunk_at m c (prev (prev t)) (half t) 1 (by show (t.val - 1 - 1) / 4 = t.val / 4; omega) (by show (t.val - 1 - 1) % 4 = 1; omega) r,
    chunk_at m c (prev (prev (prev t))) (half t) 0 (by show (t.val - 1 - 1 - 1) / 4 = t.val / 4; omega)
      (by show (t.val - 1 - 1 - 1) % 4 = 0; omega) r]
  rfl

/-! ## The output block at the end of a run -/

/-- At the last point of the run of half p the output block holds that half's share of the collapsed form. -/
theorem out_flush (c : Dev nD) (t : Fin cfg0.N) (h3 : t.val % 4 = 3) (b : Fin 64) :
    (outsAt0 m c t.val t.isLt).1 (ix3 (0 : Fin 1) (0 : Fin 1) b)
      = Cert.Energy.half (at2 (A0 m c)) (at2 (A1 m c)) (at2 (A2 m c)) (at2 (A3 m c)) (at2 (A5 m c)) (at1 (A4 m c))
          (at1 (A6 m c)) (at3 (A7 m c)) (half t) b := by
  rw [out_last m c t h3, pay3_apply, pay4_apply]
  unfold Cert.Energy.half Cert.Energy.projC
  refine congrArg (0 - ·) (Finset.sum_congr rfl fun r _ => ?_)
  rw [col_flush m c t h3 r]
  simp only [weB_at, wrB_at, beB_at, brB_at, hsB_at, rsB_at, tsB_at]
  refine congrArg₂ (· * ·) (congrArg₂ (· * ·) (congrArg₂ (· * ·) ?_ ?_) ?_) rfl
  · exact congrArg₂ (· + ·) (Finset.sum_congr rfl fun h _ => congrArg (· * _) (V0_at m c (half t) r h)) (V2_at m c (half t) r)
  · exact congrArg₂ (· + ·) (Finset.sum_congr rfl fun h _ => congrArg (· * _) (V1_at m c (half t) r h)) (V3_at m c (half t) r)
  · exact congrArg₂ (· + ·) (Finset.sum_congr rfl fun h _ => congrArg (· * _) (V0_at m c (half t) r h)) (V2_at m c (half t) r)

end Cert.KernelIdeal.KValue

end
-- ==== Proof.KRun.lean ====
/-
  The kernel's run, read: its result is the collapsed form of the energy of the argument arrays.

  The output array [2, 1, 64] is written back twice, at the last point of each half's run, each write covering one
  half's block; so entry (p, 0, b) ends at half p's share. The program then drops the unit axis and adds the two
  halves from zero: batch entry b of the result is the collapsed form.
-/
import proofs.«410714_j3753801416764_3_alg».proof.Proof.KResult

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.KValue

open Cert.KernelIdeal Cert.KernelIdeal.Gen
open Cert.Energy (at1 at2 at3)

variable (m : (ℓ : Loc nD τ sig) → Buf (Elt Ideal) ℓ) (ρ : Dev nD → PrngReg)

/-- Half p's share of the collapsed form, at batch entry b, of the argument arrays. -/
abbrev halfE (c : Dev nD) (p : Fin 2) (b : Fin 64) : EReal := Cert.Energy.half (at2 (A0 m c)) (at2 (A1 m c)) (at2 (A2 m c)) (at2 (A3 m c)) (at2 (A5 m c)) (at1 (A4 m c)) (at1 (A6 m c)) (at3 (A7 m c)) p b
/-- The collapsed form at batch entry b. -/
abbrev collapsedE (c : Dev nD) (b : Fin 64) : EReal := Cert.Energy.collapsed (at2 (A0 m c)) (at2 (A1 m c)) (at2 (A2 m c)) (at2 (A3 m c)) (at2 (A5 m c)) (at1 (A4 m c)) (at1 (A6 m c)) (at3 (A7 m c)) b

/-- The same with the coordinates given as naturals (zero outside the ranges, which no index reaches). -/
def halfN (c : Dev nD) (p b : ℕ) : EReal := if h : p < 2 ∧ b < 64 then halfE m c ⟨p, h.1⟩ ⟨b, h.2⟩ else 0

theorem halfN_eq (c : Dev nD) (p : Fin 2) (b : Fin 64) : halfN m c p.val b.val = halfE m c p b := by
  unfold halfN
  rw [dif_pos ⟨p.isLt, b.isLt⟩]

/-- What the output array holds after the grid: entry (p, 0, b) is half p's share at b. -/
def outArr (c : Dev nD) : Buf (Elt Ideal) ((c : Thread nD τ).loc main_v5) :=
  fun (i : S2x1x64.Idx) => halfN m c (i 0).val (i 2).val

/-- What a last point of a run writes back is its block of that array. -/
theorem flushed_eq (c : Dev nD) (t : Fin cfg0.N) (hf : (cfg0.win 8).flush t = true) :
    (dats m 0 c).flushed 8 t = ((cfg0.win 8).blk t).view.read (Elt Ideal) (outArr m c) := by
  have h3 : t.val % 4 = 3 := (flush0_8 t).mp hf
  have hN : cfg0.N = 8 := N_0
  have ht := t.isLt
  obtain ⟨h00, h01, h10, h11, h20, h21, h30, h31, h32, h40, h41, h42, h50, h51, h52, h60, h61, h62, h70, h71, h72, h80, h81, h82⟩ := idx_facts t
  show (cfg0.win 8).cut (grid0.coords t) ((dats m 0 c).after 8 t) = _
  rw [after0_8]
  funext j
  obtain ⟨b, rfl⟩ : ∃ b : Fin 64, j = ix3 (0 : Fin 1) (0 : Fin 1) b :=
    ⟨⟨(j 2).val, (j 2).isLt⟩, funext fun a => Fin.ext (by
      match a with
      | ⟨0, _⟩ => show (j 0).val = 0; have : (j 0).val < 1 := (j 0).isLt; omega
      | ⟨1, _⟩ => show (j 1).val = 0; have : (j 1).val < 1 := (j 1).isLt; omega
      | ⟨2, _⟩ => rfl)⟩
  show (outsAt0 m c t.val t.isLt).1 (ix3 (0 : Fin 1) (0 : Fin 1) b)
    = halfN m c (win0_8.index t (0 : Fin 3) * 1 + 1 * 0) (win0_8.index t (2 : Fin 3) * 64 + 1 * b.val)
  rw [out_flush m c t h3 b, h80, h82]
  simp only [Nat.mul_one, Nat.mul_zero, Nat.add_zero, Nat.zero_mul, Nat.zero_add, Nat.one_mul]
  exact (halfN_eq m c (half t) b).symm

/-- An index of the output array is in point t's block iff each coordinate is in the block's range. -/
theorem mem_blk8 (t : Fin cfg0.N) (i : S2x1x64.Idx) :
    i ∈ ((cfg0.win 8).blk t).view.set ↔ ∀ a : Fin 3, win0_8.index t a * S1x1x64.size a ≤ (i a).val ∧ (i a).val < win0_8.index t a * S1x1x64.size a + S1x1x64.size a := by
  show i ∈ ((View.whole main_v5).slice (win0_8.rect t)).set ↔ _
  rw [View.set_slice_whole, Rect.mem_set_unit]
  exact Iff.rfl

/-- The two write-backs cover the array, so it ends at `outArr`. -/
theorem final5 (c : Dev nD) : (dats m 0 c).arrAt 8 cfg0.N = outArr m c :=
  (dats m 0 c).arrAt_eq_of_cover 8 (outArr m c) (flushed_eq m c) fun i => by
    have hN : cfg0.N = 8 := N_0
    have hi0 : (i 0).val < 2 := (i 0).isLt
    have hi1 : (i 1).val < 1 := (i 1).isLt
    have hi2 : (i 2).val < 64 := (i 2).isLt
    refine ⟨⟨4 * (i 0).val + 3, by omega⟩, (flush0_8 _).mpr (by show (4 * (i 0).val + 3) % 4 = 3; omega), ?_⟩
    obtain ⟨h00, h01, h10, h11, h20, h21, h30, h31, h32, h40, h41, h42, h50, h51, h52, h60, h61, h62, h70, h71, h72, h80, h81, h82⟩ :=
      idx_facts (⟨4 * (i 0).val + 3, by omega⟩ : Fin cfg0.N)
    rw [mem_blk8]
    intro a
    match a with
    | ⟨0, _⟩ =>
      show win0_8.index _ (0 : Fin 3) * 1 ≤ (i 0).val ∧ (i 0).val < win0_8.index _ (0 : Fin 3) * 1 + 1
      rw [h80]
      show (4 * (i 0).val + 3) / 4 * 1 ≤ (i 0).val ∧ (i 0).val < (4 * (i 0).val + 3) / 4 * 1 + 1
      omega
    | ⟨1, _⟩ =>
      show win0_8.index _ (1 : Fin 3) * 1 ≤ (i 1).val ∧ (i 1).val < win0_8.index _ (1 : Fin 3) * 1 + 1
      rw [h81]
      omega
    | ⟨2, _⟩ =>
      show win0_8.index _ (2 : Fin 3) * 64 ≤ (i 2).val ∧ (i 2).val < win0_8.index _ (2 : Fin 3) * 64 + 64
      rw [h82]
      omega

/-- The program's result: the output array with its unit axis dropped, its two rows added from zero. -/
abbrev result (c : Dev nD) : Buf (Elt Ideal) ((c : Thread nD τ).loc main_v7) :=
  Host.reduceAdd (F := Ideal) (shapeCast S2x64 (outArr m c) shapeCasts_S2x1x64_S2x64) (constant (F := Ideal) S_ .f32 0x00000000#32)
    reducesTo_S2x64_S64_d0 h_S_

/-- The operations after the grid compute it from the output array. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v5) = outArr m c from
    (Pipeline.withArrays_arr spec0 launch0.win.arr_inj c (V0 m c) (fun w => (dats m 0 c).arrAt w (cfgs 0).N) 8).trans (final5 m c)]
  rfl

/-- Batch entry b of the result is the collapsed form of the energy. -/
theorem result_apply (c : Dev nD) (b : Fin 64) : result m c (ix1 b) = collapsedE m c b := by
  show Host.reduceAdd (F := Ideal) (shapeCast S2x64 (outArr m c) shapeCasts_S2x1x64_S2x64) (constant (F := Ideal) S_ .f32 0x00000000#32)
    reducesTo_S2x64_S64_d0 h_S_ (ix1 b) = _
  simp only [Host.reduceAdd, Ideal.hostReduceAdd_def]
  rw [Ideal.hostReduceAdd_single reducesTo_S2x64_S64_d0 (by decide)]
  unfold collapsedE Cert.Energy.collapsed
  refine congrArg₂ (· + ·) Ideal.ofBits_zero_f32 (Finset.sum_congr rfl fun p _ => ?_)
  have hp : p.val < 2 := p.isLt
  refine (shapeCast_apply (s := S2x1x64) (t := S2x64) (outArr m c) shapeCasts_S2x1x64_S2x64 _
    (ix3 (⟨p.val, hp⟩ : Fin 2) (0 : Fin 1) b) (by
      rw [Shape.rowMajor_val_three, Shape.rowMajor_val_two]
      show (p.val * 1 + 0) * 64 + b.val = p.val * 64 + b.val
      omega)).trans ?_
  exact halfN_eq m c ⟨p.val, hp⟩ b

/-- The run: the result at the collapsed form's array, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KValue

end
-- ==== Proof.RefValue.lean ====
/-
  The reference, read at an index: its result at batch entry `b` is the nested form of the energy
  (multiply the core by head and sum over k, multiply by rel and sum over j, multiply by tail and sum over i,
  negate), of the argument arrays read at their coordinates.

  Each operation of the reference is read at an index by its stage lemma; what is left is that the index each
  stage passes down — through the transposes, the broadcasts and the three reductions — is the tuple of the
  coordinates one expects: the core is read at (i, j, k), a source at (b, h), a weight at (i, h), a bias at (i).
-/
import proofs.«410714_j3753801416764_3_alg».proof.Proof.Gen.ReferenceIdeal.Read
import proofs.«410714_j3753801416764_3_alg».proof.Proof.Energy

noncomputable section

namespace Cert.ReferenceIdeal.RefValue

open Cert.ReferenceIdeal Cert.ReferenceIdeal.Gen Cert.ReferenceIdeal.Read
open Idealize.ShloMosaic Idealize.ShloMosaic.ValueIdx
open Cert.Energy (at1 at2 at3)

/-! ## The indices the stages pass down -/

theorem i26 (b : Fin 64) (k1 : Fin 128) : idx_main_v26 (ix1 b) k1 = ix2 b k1 := funext fun a => by match a with | ⟨0, _⟩ => rfl | ⟨1, _⟩ => rfl
theorem i24 (b : Fin 64) (k1 k2 : Fin 128) : idx_main_v24 (ix2 b k1) k2 = ix3 b k1 k2 := funext fun a => by match a with | ⟨0, _⟩ => rfl | ⟨1, _⟩ => rfl | ⟨2, _⟩ => rfl
theorem i20 (b : Fin 64) (k1 k2 k3 : Fin 128) : idx_main_v20 (ix3 b k1 k2) k3 = ix4 b k1 k2 k3 := funext fun a => by match a with | ⟨0, _⟩ => rfl | ⟨1, _⟩ => rfl | ⟨2, _⟩ => rfl | ⟨3, _⟩ => rfl
theorem i17 (b : Fin 64) (k1 k2 k3 : Fin 128) : idx_main_v15 (idx_main_v17 (ix4 b k1 k2 k3)) = ix3 k1 k2 k3 := funext fun a => by match a with | ⟨0, _⟩ => rfl | ⟨1, _⟩ => rfl | ⟨2, _⟩ => rfl
theorem i18 (b : Fin 64) (k1 k2 k3 : Fin 128) : idx_main_v16 (idx_main_v18 (ix4 b k1 k2 k3)) = ix2 b k1 := funext fun a => by match a with | ⟨0, _⟩ => rfl | ⟨1, _⟩ => rfl
theorem i22 (b : Fin 64) (k1 k2 : Fin 128) : idx_main_v21 (idx_main_v22 (ix3 b k1 k2)) = ix2 b k1 := funext fun a => by match a with | ⟨0, _⟩ => rfl | ⟨1, _⟩ => rfl
-- head
theorem l1 (b : Fin 64) (k1 : Fin 128) (h : Fin 768) : lidx_main_v1 (ix2 b k1) h = ix2 b h := funext fun a => by match a with | ⟨0, _⟩ => rfl | ⟨1, _⟩ => rfl
theorem r1 (b : Fin 64) (k1 : Fin 128) (h : Fin 768) : idx_main_v0 (ridx_main_v1 (ix2 b k1) h) = ix2 k1 h := funext fun a => by match a with | ⟨0, _⟩ => rfl | ⟨1, _⟩ => rfl
theorem b1 (b : Fin 64) (k1 : Fin 128) : idx_main_v2 (idx_main_v3 (ix2 b k1)) = ix1 k1 := funext fun a => by match a with | ⟨0, _⟩ => rfl
-- tail
theorem l6 (b : Fin 64) (k1 : Fin 128) (h : Fin 768) : lidx_main_v6 (ix2 b k1) h = ix2 b h := funext fun a => by match a with | ⟨0, _⟩ => rfl | ⟨1, _⟩ => rfl
theorem r6 (b : Fin 64) (k1 : Fin 128) (h : Fin 768) : idx_main_v5 (ridx_main_v6 (ix2 b k1) h) = ix2 k1 h := funext fun a => by match a with | ⟨0, _⟩ => rfl | ⟨1, _⟩ => rfl
theorem b6 (b : Fin 64) (k1 : Fin 128) : idx_main_v7 (idx_main_v8 (ix2 b k1)) = ix1 k1 := funext fun a => by match a with | ⟨0, _⟩ => rfl
-- rel
theorem l11 (b : Fin 64) (k1 : Fin 128) (h : Fin 768) : lidx_main_v11 (ix2 b k1) h = ix2 b h := funext fun a => by match a with | ⟨0, _⟩ => rfl | ⟨1, _⟩ => rfl
theorem r11 (b : Fin 64) (k1 : Fin 128) (h : Fin 768) : idx_main_v10 (ridx_main_v11 (ix2 b k1) h) = ix2 k1 h := funext fun a => by match a with | ⟨0, _⟩ => rfl | ⟨1, _⟩ => rfl
theorem b11 (b : Fin 64) (k1 : Fin 128) : idx_main_v12 (idx_main_v13 (ix2 b k1)) = ix1 k1 := funext fun a => by match a with | ⟨0, _⟩ => rfl

/-! ## The result -/

/-- The reference's result at `b` is the nested form of the energy of the arrays read at their coordinates. -/
theorem result_apply (x0 : (⟨S64x768, .f32⟩ : BufTy).Contents (Elt Ideal)) (x1 : (⟨S64x768, .f32⟩ : BufTy).Contents (Elt Ideal)) (x2 : (⟨S64x768, .f32⟩ : BufTy).Contents (Elt Ideal)) (x3 : (⟨S128x768, .f32⟩ : BufTy).Contents (Elt Ideal)) (x4 : (⟨S128, .f32⟩ : BufTy).Contents (Elt Ideal)) (x5 : (⟨S128x768, .f32⟩ : BufTy).Contents (Elt Ideal)) (x6 : (⟨S128, .f32⟩ : BufTy).Contents (Elt Ideal)) (x7 : (⟨S128x128x128, .f32⟩ : BufTy).Contents (Elt Ideal)) (b : Fin 64) :
    val_main_v27 (F := Ideal) x0 x1 x2 x3 x4 x5 x6 x7 (ix1 b)
      = Cert.Energy.nested (at2 x0) (at2 x1) (at2 x2) (at2 x3) (at2 x5) (at1 x4) (at1 x6) (at3 x7) b := by
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply, val_main_v4_apply, val_main_v3_apply,
    val_main_v2_apply, val_main_v1_apply, val_main_v0_apply, val_main_cst_apply, val_main_cst_0_apply,
    val_main_cst_1_apply, Ideal.addf_def, Ideal.mulf_def, Ideal.hostNegf_def, Ideal.negf_def, Ideal.ofBits_def,
    Ideal.ofBits_zero_f32, i26, i24, i20, i17, i18, i22, l1, r1, b1, l6, r6, b6, l11, r11, b11,
    Cert.Energy.nested, Cert.Energy.projN]

end Cert.ReferenceIdeal.RefValue

end
-- ==== Proof.Finite.lean ====
/-
  The precondition read back: every entry of every argument array is a real number.

  The precondition is the conjunction, over the eight arrays, of "every entry's absolute value is below +∞"; each
  conjunct is an all-reduction of the entrywise comparison, so it gives the comparison at every index, and an extended
  real whose absolute value is below +∞ is a real.
-/
import proofs.«410714_j3753801416764_3_alg».proof.Pre_finite_inputs
import proofs.«410714_j3753801416764_3_alg».proof.Proof.LibERealRows
import Idealize.ShloMosaic.Lib.ReduceAll
import Idealize.ShloMosaic.Lib.ValueIdx

noncomputable section

open Idealize.ShloMosaic

namespace Cert.Pre_finite_inputs.Decode

open Cert.Pre_finite_inputs

instance : Subsingleton S_.Idx := ⟨fun a b => funext fun d => d.elim0⟩

/-- One array's test: if the all-reduction of `|x| < +∞` is true, every entry of `x` is a real. -/
theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32))) init hr hu
      ValueIdx.ix0 = 1#1) (i : s.Idx) : ∃ r : ℝ, x i = (r : EReal) :=
  Cert.ERealRows.real_of_abs_lt_inf (x i) (Host.reduce_andi_all _ init hr hu ValueIdx.ix0 e i)

variable [Facts]

/-- The precondition gives, for each of the eight arrays, that every entry is a real. -/
theorem real_of_pre (x0 x1 x2 : FVec Ideal S64x768 .f32) (x3 : FVec Ideal S128x768 .f32) (x4 : FVec Ideal S128 .f32)
    (x5 : FVec Ideal S128x768 .f32) (x6 : FVec Ideal S128 .f32) (x7 : FVec Ideal S128x128x128 .f32)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have h0 := congrFun h ValueIdx.ix0
  dsimp only [fn, fn_part1, fn_part2] at h0
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨h5, e3⟩ := IntOp.andi_eq_one.1 h4
  obtain ⟨h6, e2⟩ := IntOp.andi_eq_one.1 h5
  obtain ⟨e0, e1⟩ := IntOp.andi_eq_one.1 h6
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6, real_of_all x7 _ _ _ _ e7⟩

end Cert.Pre_finite_inputs.Decode

end
-- ==== Proof.lean ====
/-
  The certificate's proof: the Tucker energy kernel against its reference, over the extended reals.

  Both programs compute, for each batch entry b,
      −Σ_i head b i · rel b i · tail b i · Σ_{j,k} core i j k
  with head, rel, tail affine projections of the sources. The reference multiplies the core by head, rel and tail
  in turn, summing one axis after each product (the nested form). The kernel sums each row of the core first, in
  four chunks, multiplies the three projections and the row sums, sums each half of the rows, negates, and adds the
  two halves (the collapsed form). With every input finite all sums and products are reals, where the two forms are
  equal by distributivity and re-indexing (Proof/Energy.lean).

  The kernel's frame is the generated one; its value is read off that frame's run (Proof/KPieces … KRun); the
  reference's run and its stages read at an index are generated, and Proof/RefValue.lean identifies the result
  with the nested form; Proof/Finite.lean reads the precondition back as "every entry is a real".
-/
import proofs.«410714_j3753801416764_3_alg».proof.Defs
import proofs.«410714_j3753801416764_3_alg».proof.Proof.Gen.Kernel
import proofs.«410714_j3753801416764_3_alg».proof.Proof.Gen.Kernel.Frame
import proofs.«410714_j3753801416764_3_alg».proof.Proof.Gen.KernelIdeal
import proofs.«410714_j3753801416764_3_alg».proof.Proof.Gen.KernelIdeal.Frame
import proofs.«410714_j3753801416764_3_alg».proof.Proof.Gen.ReferenceIdeal
import proofs.«410714_j3753801416764_3_alg».proof.Proof.Gen.ReferenceIdeal.Run
import proofs.«410714_j3753801416764_3_alg».proof.Proof.Gen.ReferenceIdeal.Read
import proofs.«410714_j3753801416764_3_alg».proof.Proof.Gen.Pre_finite_inputs
import proofs.«410714_j3753801416764_3_alg».proof.Proof.KRun
import proofs.«410714_j3753801416764_3_alg».proof.Proof.RefValue
import proofs.«410714_j3753801416764_3_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result is the collapsed form and the reference's the nested form of the energy of arrays that
    agree; the precondition makes every entry a real, where the two forms are equal. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨f0, f1, f2, f3, f4, f5, f6, f7⟩ := Cert.Pre_finite_inputs.Decode.real_of_pre _ _ _ _ _ _ _ _ (hpre c)
  rw [Cert.ReferenceIdeal.Read.val_main_v27_eq, a0, a1, a2, a3, a4, a5, a6, a7]
  funext i
  obtain ⟨b, rfl⟩ : ∃ b : Fin 64, i = ix1 b := ⟨i 0, eq_ix1 i⟩
  rw [Cert.ReferenceIdeal.RefValue.result_apply]
  refine Eq.trans ?_ (Cert.KernelIdeal.KValue.result_apply m c b).symm
  exact (Cert.Energy.collapsed_eq_nested _ _ _ _ _ _ _ _ (fun b h => f0 (ix2 b h)) (fun b h => f1 (ix2 b h))
    (fun b h => f2 (ix2 b h)) (fun i h => f3 (ix2 i h)) (fun i => f4 (ix1 i)) (fun i h => f5 (ix2 i h))
    (fun i => f6 (ix1 i)) (fun i j k => f7 (ix3 i j k)) b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
